-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 105
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x256, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000, .f32⟩
  | .hbm, ⟨86, _⟩ => ⟨S850000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x64, .f32⟩
  | .hbm, ⟨96, _⟩ => ⟨S850000x1, .f32⟩
  | .hbm, ⟨97, _⟩ => ⟨S850000x64, .f32⟩
  | .hbm, ⟨98, _⟩ => ⟨S850000x64, .f32⟩
  | .hbm, ⟨99, _⟩ => ⟨S_, .f32⟩
  | .hbm, ⟨100, _⟩ => ⟨S50000x64, .f32⟩
  | .hbm, ⟨101, _⟩ => ⟨S850000x1, .i32⟩
  | .hbm, ⟨102, _⟩ => ⟨S50000x64, .f32⟩
  | .hbm, ⟨103, _⟩ => ⟨S1x64, .f32⟩
  | .hbm, ⟨104, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  dot_S5000x128_S128x256_S5000x256_1_0_0_1_n_n_wf : DotDims.WF S5000x128 S128x256 S5000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v75) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x256, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000, .f32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x64, .f32⟩
  | .hbm, ⟨101, _⟩ => ⟨S850000x1, .f32⟩
  | .hbm, ⟨102, _⟩ => ⟨S850000x64, .f32⟩
  | .hbm, ⟨103, _⟩ => ⟨S850000x64, .f32⟩
  | .hbm, ⟨104, _⟩ => ⟨S_, .f32⟩
  | .hbm, ⟨105, _⟩ => ⟨S50000x64, .f32⟩
  | .hbm, ⟨106, _⟩ => ⟨S850000x1, .i32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S50000, .f32⟩
  | .hbm, ⟨115, _⟩ => ⟨S50000, .f32⟩
  | .hbm, ⟨116, _⟩ => ⟨S50000x1, .f32⟩
  | .hbm, ⟨117, _⟩ => ⟨S50000x64, .f32⟩
  | .hbm, ⟨118, _⟩ => ⟨S50000x64, .f32⟩
  | .hbm, ⟨119, _⟩ => ⟨S50000x64, .f32⟩
  | .hbm, ⟨120, _⟩ => ⟨S_, .f32⟩
  | .hbm, ⟨121, _⟩ => ⟨S50000, .f32⟩
  | .hbm, ⟨122, _⟩ => ⟨S50000x1, .f32⟩
  | .hbm, ⟨123, _⟩ => ⟨S50000x1, .f32⟩
  | .hbm, ⟨124, _⟩ => ⟨S50000x64, .f32⟩
  | .hbm, ⟨125, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x128_S128x256_S50000x256_1_0_0_1_n_n_wf : DotDims.WF S50000x128 S128x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Region0.lean ====
/-
  The first pallas_call, as one whole-array function. Its grid has ten points; point `t` stages rows
  `5000 t … 5000 t + 4999` of the node features `X : [50000, 128]`, the whole weight `W : [128, 256]`, and writes
  back rows `5000 t …` of the result. At the ideal values the narrowing to bf16 is the identity and the matrix
  unit's product accumulated into zero is the plain sum, so the entry `(p, q)` of the block point `t` writes is
      ∑ k, X[5000 t + p, k] * W[k, q],
  which is the entry `(5000 t + p, q)` of the host's product of the whole arrays. The ten blocks tile the result,
  so after the region the result array IS that product.
-/
import proofs.«172606_j47107201302761_1_alg».proof.Proof.Gen.KernelIdeal.Frame
import proofs.«172606_j47107201302761_1_alg».proof.Proof.LibDot2
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product of the whole arrays, as the host spells it. -/
abbrev whole (wf : DotDims.WF ⟨2, ![50000, 128]⟩ ⟨2, ![128, 256]⟩ ⟨2, ![50000, 256]⟩ [1] [0] [0] [1] [] [])
    (X : FVec Ideal S50000x128 .f32) (W : FVec Ideal S128x256 .f32) : FVec Ideal S50000x256 .f32 :=
  Host.dotGeneral (Dot2.mmDims 50000 128 256 wf) none X W

theorem hz : (![0, 0] : Fin 2 → Nat) = fun _ => 0 := funext fun a => by fin_cases a <;> rfl

/-- The body's one stored value at `(p, q)`: the sum over the contracted axis of the products of the loaded blocks'
    entries. -/
theorem pay_apply (x0 : Vec Ideal S5000x128 .f32) (x1 : Vec Ideal S128x256 .f32) (p : Fin 5000) (q : Fin 256) :
    k0_pay1 x0 x1 (ix2 p q) = ∑ k : Fin 128, x0 (ix2 p k) * x1 (ix2 k q) :=
  Dot2.matmul_zero_mm_apply dot_S5000x128_S128x256_S5000x256_1_0_0_1_n_n.wf none
    (truncf .bf16 x0 bitsLt_bf16_f32) (truncf .bf16 x1 bitsLt_bf16_f32) p q

/-- One point's block against the whole product: if the left block holds rows `T·5000 …` of `X`, the right block
    is `W`, and the output block sits at rows `T·5000 …`, then the stored value at `j` is the whole product at `j`'s
    place in the array. -/
theorem block_eq (wf) (X : FVec Ideal S50000x128 .f32) (W : FVec Ideal S128x256 .f32)
    (x0 : Vec Ideal S5000x128 .f32) (x1 : Vec Ideal S128x256 .f32) (T : Nat)
    (e : S5000x256.Idx → S50000x256.Idx)
    (he0 : ∀ j, (e j 0).val = T * 5000 + (j 0).val) (he1 : ∀ j, (e j 1).val = (j 1).val)
    (hx0 : ∀ (y : S5000x128.Idx) (i : S50000x128.Idx), (i 0).val = T * 5000 + (y 0).val → (i 1).val = (y 1).val → x0 y = X i)
    (hx1 : x1 = W) (j : S5000x256.Idx) :
    k0_pay1 x0 x1 j = whole wf X W (e j) := by
  subst hx1
  obtain ⟨p, q, rfl⟩ : ∃ (p : Fin 5000) (q : Fin 256), j = ix2 p q := ⟨j 0, j 1, eq_ix2 j⟩
  obtain ⟨r, s, hrs⟩ : ∃ (r : Fin 50000) (s : Fin 256), e (ix2 p q) = ix2 r s :=
    ⟨e (ix2 p q) 0, e (ix2 p q) 1, eq_ix2 _⟩
  have hr : r.val = T * 5000 + p.val := by have := he0 (ix2 p q); rw [hrs] at this; exact this
  have hs : s = q := Fin.ext (by have := he1 (ix2 p q); rw [hrs] at this; exact this)
  subst hs
  rw [hrs, pay_apply]
  show _ = Host.dotGeneral (Dot2.mmDims 50000 128 256 wf) none X x1 (ix2 r s)
  rw [Dot2.host_dotGeneral_mm_apply]
  refine Finset.sum_congr rfl fun k _ => ?_
  rw [hx0 (ix2 p k) (ix2 r k) hr rfl]

/-- The printed index maps over the ten points: the two row-tiled windows are at block `t` on axis 0, everything
    else at block 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point `t` writes back is block `t` of the whole product of the arrays the region finds. -/
theorem flushed_eq (wf) (c : Dev nD) (t : Fin cfg0.N) :
    (dat0 V c).flushed 2 t = ((cfg0.win 2).blk t).view.read (Elt Ideal) (whole wf (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨e0, e1, e2, e3, e4⟩ := idx_facts t
  funext j
  refine block_eq wf (V c main_arg0) (V c main_arg2) _ _ (win0_2.index t (0 : Fin 2))
    (fun j => ((cfg0.win 2).blk t).view.emb j) ?_ ?_ ?_ ?_ j
  · intro j
    show win0_2.index t (0 : Fin 2) * 5000 + 1 * (j 0).val = _
    omega
  · intro j
    show win0_2.index t (1 : Fin 2) * 256 + 1 * (j 1).val = _
    omega
  · intro y i h0 h1
    show V c main_arg0 (((cfg0.win 0).blk t).view.emb y) = V c main_arg0 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega

/-- An index of the result is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v17).slice (win0_2.rect t)).set ↔ _
  rw [View.set_slice_whole, Rect.mem_set_unit]
  exact Iff.rfl

/-- Row `r` of the result lies in the block of point `r / 5000`. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the region the result array is the whole product of the arrays the region found. -/
theorem arr_eq (wf) (c : Dev nD) :
    (dat0 V c).arrAt 2 cfg0.N = whole wf (V c main_arg0) (V c main_arg2) :=
  (dat0 V c).arrAt_eq_of_cover 2 _ (fun t _ => flushed_eq V wf c t) cover

end Cert.KernelIdeal.Region0

end
-- ==== Proof.Region1.lean ====
/-
  The second pallas_call, as one whole-array function. Point `t` of its ten-point grid stages rows `5000 t …` of the
  aggregated features `A : [50000, 256]`, the bias as one row `B : [1, 256]` and the whole weight `W : [256, 64]`,
  and writes back rows `5000 t …` of the result. At the ideal values the entry `(p, q)` of the block it writes is
      ∑ k, max (A[5000 t + p, k] + B[0, k]) 0 * W[k, q],
  the entry `(5000 t + p, q)` of the host's `relu (A + bias) · W` over the whole arrays, where the host lays the bias
  row down all 50000 rows and compares against a zero it broadcasts. The ten blocks tile the result.
-/
import proofs.«172606_j47107201302761_1_alg».proof.Proof.Gen.KernelIdeal.Frame
import proofs.«172606_j47107201302761_1_alg».proof.Proof.LibDot2
import Idealize.ShloMosaic.Lib.Pipeline.Value
import Idealize.ShloMosaic.Lib.ValueIdx
import Idealize.ShloMosaic.Lib.KernelVsHost

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- `relu (A + bias) · W` over the whole arrays, as the host spells it: the bias row broadcast down the rows, the
    maximum against a broadcast zero, the general dot product. -/
abbrev whole (wf : DotDims.WF ⟨2, ![50000, 256]⟩ ⟨2, ![256, 64]⟩ ⟨2, ![50000, 64]⟩ [1] [0] [0] [1] [] [])
    (hb : (⟨2, ![1, 256]⟩ : Shape).BroadcastsInDim ⟨2, ![50000, 256]⟩ ![0, 1])
    (h0 : (⟨0, ![]⟩ : Shape).BroadcastsInDim ⟨2, ![50000, 256]⟩ ![])
    (A : FVec Ideal S50000x256 .f32) (B : FVec Ideal S1x256 .f32) (W : FVec Ideal S256x64 .f32) :
    FVec Ideal S50000x64 .f32 :=
  Host.dotGeneral (Dot2.mmDims 50000 256 64 wf) none
    (maximumf (addf A (broadcastInDim ⟨2, ![50000, 256]⟩ ![0, 1] hb B))
      (broadcastInDim ⟨2, ![50000, 256]⟩ ![] h0 (constant (F := Ideal) ⟨0, ![]⟩ .f32 0x00000000#32))) W

theorem hz : (![0, 0] : Fin 2 → Nat) = fun _ => 0 := funext fun a => by fin_cases a <;> rfl

/-- The body's stored value at `(p, q)`. -/
theorem pay_apply (x0 : Vec Ideal S5000x256 .f32) (x1 : Vec Ideal S1x256 .f32) (x2 : Vec Ideal S256x64 .f32)
    (p : Fin 5000) (q : Fin 64) :
    k1_pay1 x0 x1 x2 (ix2 p q)
      = ∑ k : Fin 256, max (x0 (ix2 p k) + x1 (ix2 (0 : Fin 1) k)) (Ideal.ofBits .f32 0x00000000#32) * x2 (ix2 k q) := by
  unfold k1_pay1
  refine (Dot2.matmul_zero_mm_apply dot_S5000x256_S256x64_S5000x64_1_0_0_1_n_n.wf none _ _ p q).trans ?_
  refine Finset.sum_congr rfl fun k _ => ?_
  rw [truncf_apply, truncf_apply, maximumf_apply, addf_apply, broadcast_apply, shapeCast_self, shapeCast_self]
  rw [broadcastTo_apply x1 broadcasts_S1x256_S5000x256 (ix2 p k) (ix2 (0 : Fin 1) k) (fun a => by
    match a with
    | ⟨0, _⟩ => rfl
    | ⟨1, _⟩ => show k.val = if (256 : Nat) = 1 then 0 else k.val; rw [if_neg (by decide)])]
  rfl

/-- The host's spelling at `(r, q)`. -/
theorem whole_apply (wf) (hb) (h0) (A : FVec Ideal S50000x256 .f32) (B : FVec Ideal S1x256 .f32)
    (W : FVec Ideal S256x64 .f32) (r : Fin 50000) (q : Fin 64) :
    whole wf hb h0 A B W (ix2 r q)
      = ∑ k : Fin 256, max (A (ix2 r k) + B (ix2 (0 : Fin 1) k)) (Ideal.ofBits .f32 0x00000000#32) * W (ix2 k q) := by
  show Host.dotGeneral (Dot2.mmDims 50000 256 64 wf) none _ W (ix2 r q) = _
  rw [Dot2.host_dotGeneral_mm_apply]
  refine Finset.sum_congr rfl fun k _ => ?_
  rw [maximumf_apply, addf_apply, broadcastInDim_oneRow_apply hb B r k,
    broadcastInDim_apply ![] h0 _ (ix2 r k) ix0 (fun a => a.elim0), constant_apply]

/-- One point's block against the whole: the left block holds rows `T·5000 …` of `A`, the other two blocks are the
    whole bias row and weight, the output block sits at rows `T·5000 …`. -/
theorem block_eq (wf) (hb) (h0) (A : FVec Ideal S50000x256 .f32) (B : FVec Ideal S1x256 .f32) (W : FVec Ideal S256x64 .f32)
    (x0 : Vec Ideal S5000x256 .f32) (x1 : Vec Ideal S1x256 .f32) (x2 : Vec Ideal S256x64 .f32) (T : Nat)
    (e : S5000x64.Idx → S50000x64.Idx)
    (he0 : ∀ j, (e j 0).val = T * 5000 + (j 0).val) (he1 : ∀ j, (e j 1).val = (j 1).val)
    (hx0 : ∀ (y : S5000x256.Idx) (i : S50000x256.Idx), (i 0).val = T * 5000 + (y 0).val → (i 1).val = (y 1).val → x0 y = A i)
    (hx1 : x1 = B) (hx2 : x2 = W) (j : S5000x64.Idx) :
    k1_pay1 x0 x1 x2 j = whole wf hb h0 A B W (e j) := by
  subst hx1; subst hx2
  obtain ⟨p, q, rfl⟩ : ∃ (p : Fin 5000) (q : Fin 64), j = ix2 p q := ⟨j 0, j 1, eq_ix2 j⟩
  obtain ⟨r, s, hrs⟩ : ∃ (r : Fin 50000) (s : Fin 64), e (ix2 p q) = ix2 r s :=
    ⟨e (ix2 p q) 0, e (ix2 p q) 1, eq_ix2 _⟩
  have hr : r.val = T * 5000 + p.val := by have := he0 (ix2 p q); rw [hrs] at this; exact this
  have hs : s = q := Fin.ext (by have := he1 (ix2 p q); rw [hrs] at this; exact this)
  subst hs
  rw [hrs, pay_apply, whole_apply]
  refine Finset.sum_congr rfl fun k _ => ?_
  rw [hx0 (ix2 p k) (ix2 r k) hr rfl]

/-- The printed index maps over the ten points. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 :=
  (by decide +kernel : ∀ t : Fin grid1.N, _)

/-- Every row block of the result is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

variable (V : (c : Dev nD) → (b : Ref sig .tc) → Buf (Elt Ideal) ((c : Thread nD τ).loc b))

/-- What point `t` writes back is block `t` of the whole function of the arrays the region finds. -/
theorem flushed_eq (wf) (hb) (h0) (c : Dev nD) (t : Fin cfg1.N) :
    (dat1 V c).flushed 3 t = ((cfg1.win 3).blk t).view.read (Elt Ideal)
      (whole wf hb h0 (V c main_v45) (V c main_v46) (V c main_arg4)) := by
  show (cfg1.win 3).cut (grid1.coords t) ((dat1 V c).after 3 t) = _
  rw [after1_3]
  unfold out1_3
  rw [View.canon_unit_zero hz]
  simp only [View.ld_unit_zero (S := S5000x256) hz, View.ld_unit_zero (S := S1x256) hz, View.ld_unit_zero (S := S256x64) hz]
  obtain ⟨e0, e1, e2, e3, e4, e5, e6⟩ := idx_facts t
  funext j
  refine block_eq wf hb h0 (V c main_v45) (V c main_v46) (V c main_arg4) _ _ _ (win1_3.index t (0 : Fin 2))
    (fun j => ((cfg1.win 3).blk t).view.emb j) ?_ ?_ ?_ ?_ ?_ j
  · intro j
    show win1_3.index t (0 : Fin 2) * 5000 + 1 * (j 0).val = _
    omega
  · intro j
    show win1_3.index t (1 : Fin 2) * 64 + 1 * (j 1).val = _
    omega
  · intro y i h0' h1'
    show V c main_v45 (((cfg1.win 0).blk t).view.emb y) = V c main_v45 i
    refine congrArg _ (funext fun a => Fin.ext ?_)
    match a with
    | ⟨0, _⟩ => show win1_0.index t (0 : Fin 2) * 5000 + 1 * (y 0).val = (i 0).val; omega
    | ⟨1, _⟩ => show win1_0.index t (1 : Fin 2) * 256 + 1 * (y 1).val = (i 1).val; omega
  · funext y
    show V c main_v46 (((cfg1.win 1).blk t).view.emb y) = V c main_v46 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 256 + 1 * (y 1).val = (y 1).val; omega
  · funext y
    show V c main_arg4 (((cfg1.win 2).blk t).view.emb y) = V c main_arg4 y
    refine congrArg _ (funext fun a => Fin.ext ?_)
    match a with
    | ⟨0, _⟩ => show win1_2.index t (0 : Fin 2) * 256 + 1 * (y 0).val = (y 0).val; omega
    | ⟨1, _⟩ => show win1_2.index t (1 : Fin 2) * 64 + 1 * (y 1).val = (y 1).val; omega

/-- An index of the result is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- Row `r` of the result lies in the block of point `r / 5000`. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the result array is the whole function of the arrays the region found. -/
theorem arr_eq (wf) (hb) (h0) (c : Dev nD) :
    (dat1 V c).arrAt 3 cfg1.N = whole wf hb h0 (V c main_v45) (V c main_v46) (V c main_arg4) :=
  (dat1 V c).arrAt_eq_of_cover 3 _ (fun t _ => flushed_eq V wf hb h0 c t) cover

end Cert.KernelIdeal.Region1

end
-- ==== Proof.LibRowLsm.lean ====
/-
  A row-wise log-softmax of `A + bias`, read at an index, at the ideal values (floats are the extended reals).

  For an `[M, N]` array `A` and a bias given as one row `B : [1, N]`, write `f k = A[r, k] + B[0, k]` for the
  entries of row `r`. Both spellings below compute, at `(r, q)`,
      (f q - m) - log (∑ k, exp (f k - m)),      m = max (-∞) (the maximum of f over the row, folded from -∞),
  where `-∞` is the value of the f32 pattern `0xFF800000` (it is never evaluated: the same word stands on both
  sides). The accelerator's spelling takes the row maximum and the row sum by one-axis vector reductions, turns
  the resulting column into an `[M, 1]` array by a cast and lays it along the rows by a broadcast; the host's
  spelling reduces with `stablehlo.reduce` (the sum from an initial value that is zero) and broadcasts in two
  steps, `[M] → [M, 1] → [M, N]`. The laws are stated for any row count `M` and row length `N`, so that one text
  serves a row tile and the whole array.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Idealize.ShloMosaic.RowLsm

open Idealize.ShloMosaic Idealize.ShloMosaic.ValueIdx

variable {M N : Nat}

/-- The value of f32's `-∞` pattern. -/
abbrev ninf : EReal := Ideal.ofBits .f32 0xFF800000#32

/-- A row's maximum as both programs take it: folded from `-∞`, then once more against `-∞`. -/
def rowMax (f : Fin N → EReal) : EReal := max ninf (Finset.univ.fold max ninf f)

/-- The log-softmax of a row `f` at `q`. -/
def lsmRow (f : Fin N → EReal) (q : Fin N) : EReal :=
  (f q - rowMax f) - Ideal.log (∑ k : Fin N, Ideal.exp (f k - rowMax f))

/-- Inserting the column `k` into the row index `p` gives the index `(p, k)`. -/
theorem lift_row (h : (⟨2, ![M, N]⟩ : Shape).Reduces [1] ⟨1, ![M]⟩) (p : Fin M) (k : Fin N) :
    h.lift (ix1 p) k = ix2 p k := by
  funext c; apply Fin.ext
  match c with
  | ⟨0, _⟩ => rfl
  | ⟨1, _⟩ => rfl

/-! ## The accelerator's spelling -/

section Kernel

variable (hs0 : (⟨2, ![M, N]⟩ : Shape).ShapeCasts ⟨2, ![M, N]⟩)
  (hs1 : (⟨2, ![1, N]⟩ : Shape).ShapeCasts ⟨2, ![1, N]⟩)
  (hb : (⟨2, ![1, N]⟩ : Shape).Broadcasts ⟨2, ![M, N]⟩)
  (hr : (⟨2, ![M, N]⟩ : Shape).Reduces [1] ⟨1, ![M]⟩)
  (hφ : FKind.Formats .f32)
  (hm : (0xFF800000#32 : BitVec FTy.f32.bits) = FKind.maximumf.neutral .f32 hφ)
  (ha : (0x00000000#32 : BitVec FTy.f32.bits) = FKind.add.neutral .f32 hφ)
  (hc : (⟨1, ![M]⟩ : Shape).ShapeCasts ⟨2, ![M, 1]⟩)
  (hbc : (⟨2, ![M, 1]⟩ : Shape).Broadcasts ⟨2, ![M, N]⟩)

/-- The bias row laid along every row and added. -/
def kBias (x0 : FVec Ideal ⟨2, ![M, N]⟩ .f32) (x1 : FVec Ideal ⟨2, ![1, N]⟩ .f32) : FVec Ideal ⟨2, ![M, N]⟩ .f32 :=
  addf (shapeCast ⟨2, ![M, N]⟩ x0 hs0) (broadcastTo ⟨2, ![M, N]⟩ (shapeCast ⟨2, ![1, N]⟩ x1 hs1) hb)

/-- Each row's maximum. -/
def kRowMax (v : FVec Ideal ⟨2, ![M, N]⟩ .f32) : FVec Ideal ⟨1, ![M]⟩ .f32 :=
  maximumf (broadcast ⟨1, ![M]⟩ (Scalar.ofBits (F := Ideal) .f32 0xFF800000#32))
    (multiReduction .maximumf [1] ⟨1, ![M]⟩ v 0xFF800000#32 hr hφ hm)

/-- Each row shifted by its maximum. -/
def kShift (v : FVec Ideal ⟨2, ![M, N]⟩ .f32) : FVec Ideal ⟨2, ![M, N]⟩ .f32 :=
  subf v (broadcastTo ⟨2, ![M, N]⟩ (shapeCast ⟨2, ![M, 1]⟩ (kRowMax hr hφ hm v) hc) hbc)

/-- The logarithm of each row's sum of exponentials, as a column. -/
def kLse (w : FVec Ideal ⟨2, ![M, N]⟩ .f32) : FVec Ideal ⟨2, ![M, 1]⟩ .f32 :=
  log (shapeCast ⟨2, ![M, 1]⟩ (multiReduction .add [1] ⟨1, ![M]⟩ (exp w) 0x00000000#32 hr hφ ha) hc)

/-- The whole row-wise log-softmax of `x0 + bias`. -/
def kLsm (x0 : FVec Ideal ⟨2, ![M, N]⟩ .f32) (x1 : FVec Ideal ⟨2, ![1, N]⟩ .f32) : FVec Ideal ⟨2, ![M, N]⟩ .f32 :=
  subf (kShift hr hφ hm hc hbc (kBias hs0 hs1 hb x0 x1))
    (broadcastTo ⟨2, ![M, N]⟩ (kLse hr hφ ha hc (kShift hr hφ hm hc hbc (kBias hs0 hs1 hb x0 x1))) hbc)

theorem kBias_apply (x0 : FVec Ideal ⟨2, ![M, N]⟩ .f32) (x1 : FVec Ideal ⟨2, ![1, N]⟩ .f32) (p : Fin M) (k : Fin N) :
    kBias hs0 hs1 hb x0 x1 (ix2 p k) = x0 (ix2 p k) + x1 (ix2 (0 : Fin 1) k) := by
  unfold kBias
  rw [addf_apply, shapeCast_self, shapeCast_self]
  rw [broadcastTo_apply x1 hb (ix2 p k) (ix2 (0 : Fin 1) k) (fun a => by
    match a with
    | ⟨0, _⟩ => rfl
    | ⟨1, _⟩ =>
      show k.val = if N = 1 then 0 else k.val
      split
      · have := k.isLt; omega
      · rfl)]

/-- A column cast to `[M, 1]` and laid along the rows reads, at `(p, q)`, the column's entry `p`. -/
theorem col_apply {α : Type} (v : (⟨1, ![M]⟩ : Shape).Idx → α) (p : Fin M) (q : Fin N) :
    broadcastTo ⟨2, ![M, N]⟩ (shapeCast ⟨2, ![M, 1]⟩ v hc) hbc (ix2 p q) = v (ix1 p) := by
  rw [broadcastTo_apply (shapeCast ⟨2, ![M, 1]⟩ v hc) hbc (ix2 p q) (ix2 p (0 : Fin 1)) (fun a => by
    match a with
    | ⟨0, _⟩ =>
      show p.val = if M = 1 then 0 else p.val
      split
      · have := p.isLt; omega
      · rfl
    | ⟨1, _⟩ => rfl)]
  exact shapeCast_apply v hc (ix2 p (0 : Fin 1)) (ix1 p) (by
    rw [Shape.rowMajor_val_two, Shape.rowMajor_val_one]; show p.val = p.val * 1 + 0; omega)

theorem kRowMax_apply (v : FVec Ideal ⟨2, ![M, N]⟩ .f32) (p : Fin M) :
    kRowMax hr hφ hm v (ix1 p) = rowMax fun k : Fin N => v (ix2 p k) := by
  unfold kRowMax rowMax
  rw [maximumf_apply, broadcast_apply, Ideal.multiReduction_maximumf_single]
  refine congrArg (max _) ?_
  refine congrArg (Finset.univ.fold max _) ?_
  funext k
  exact congrArg v (lift_row hr p k)

theorem kShift_apply (v : FVec Ideal ⟨2, ![M, N]⟩ .f32) (p : Fin M) (k : Fin N) :
    kShift hr hφ hm hc hbc v (ix2 p k) = v (ix2 p k) - rowMax fun k' : Fin N => v (ix2 p k') := by
  unfold kShift
  rw [subf_apply, col_apply hc hbc, kRowMax_apply]

theorem kLse_apply (w : FVec Ideal ⟨2, ![M, N]⟩ .f32) (p : Fin M) :
    kLse hr hφ ha hc w (ix2 p (0 : Fin 1)) = Ideal.log (∑ k : Fin N, Ideal.exp (w (ix2 p k))) := by
  unfold kLse
  show Ideal.log (shapeCast ⟨2, ![M, 1]⟩ _ hc (ix2 p (0 : Fin 1))) = _
  rw [shapeCast_apply _ hc (ix2 p (0 : Fin 1)) (ix1 p) (by
    rw [Shape.rowMajor_val_two, Shape.rowMajor_val_one]; show p.val = p.val * 1 + 0; omega)]
  rw [Ideal.multiReduction_add_single]
  refine congrArg Ideal.log (Finset.sum_congr rfl fun k _ => ?_)
  show Ideal.exp (w (hr.lift (ix1 p) k)) = _
  rw [lift_row hr p k]

/-- The accelerator's spelling at `(p, q)`. -/
theorem kLsm_apply (x0 : FVec Ideal ⟨2, ![M, N]⟩ .f32) (x1 : FVec Ideal ⟨2, ![1, N]⟩ .f32) (p : Fin M) (q : Fin N) :
    kLsm hs0 hs1 hb hr hφ hm ha hc hbc x0 x1 (ix2 p q)
      = lsmRow (fun k : Fin N => x0 (ix2 p k) + x1 (ix2 (0 : Fin 1) k)) q := by
  unfold kLsm lsmRow
  rw [subf_apply, kShift_apply]
  rw [broadcastTo_apply (kLse hr hφ ha hc _) hbc (ix2 p q) (ix2 p (0 : Fin 1)) (fun a => by
    match a with
    | ⟨0, _⟩ =>
      show p.val = if M = 1 then 0 else p.val
      split
      · have := p.isLt; omega
      · rfl
    | ⟨1, _⟩ => rfl)]
  rw [kLse_apply]
  simp only [kShift_apply, kBias_apply]

end Kernel

/-! ## The host's spelling -/

section Host

variable (hb : (⟨2, ![1, N]⟩ : Shape).BroadcastsInDim ⟨2, ![M, N]⟩ ![0, 1])
  (h0 : (⟨0, ![]⟩ : Shape).BroadcastsInDim ⟨1, ![M]⟩ ![])
  (hr' : (⟨2, ![M, N]⟩ : Shape).ReducesTo [1] ⟨1, ![M]⟩)
  (hu : 0 < (⟨0, ![]⟩ : Shape).numel)
  (hc : (⟨1, ![M]⟩ : Shape).BroadcastsInDim ⟨2, ![M, 1]⟩ ![0])
  (hbc : (⟨2, ![M, 1]⟩ : Shape).BroadcastsInDim ⟨2, ![M, N]⟩ ![0, 1])

/-- The bias row laid along every row and added. -/
def hBias (A : FVec Ideal ⟨2, ![M, N]⟩ .f32) (B : FVec Ideal ⟨2, ![1, N]⟩ .f32) : FVec Ideal ⟨2, ![M, N]⟩ .f32 :=
  addf A (broadcastInDim ⟨2, ![M, N]⟩ ![0, 1] hb B)

/-- Each row's maximum. -/
def hRowMax (X : FVec Ideal ⟨2, ![M, N]⟩ .f32) : FVec Ideal ⟨1, ![M]⟩ .f32 :=
  maximumf (broadcastInDim ⟨1, ![M]⟩ ![] h0 (constant (F := Ideal) ⟨0, ![]⟩ .f32 0xFF800000#32))
    (Host.reduce FloatOps.maximumf X (constant (F := Ideal) ⟨0, ![]⟩ .f32 0xFF800000#32) hr' hu)

/-- Each row shifted by its maximum. -/
def hShift (X : FVec Ideal ⟨2, ![M, N]⟩ .f32) : FVec Ideal ⟨2, ![M, N]⟩ .f32 :=
  subf X (broadcastInDim ⟨2, ![M, N]⟩ ![0, 1] hbc (broadcastInDim ⟨2, ![M, 1]⟩ ![0] hc (hRowMax h0 hr' hu X)))

/-- The logarithm of each row's sum of exponentials, as a column. -/
def hLse (W : FVec Ideal ⟨2, ![M, N]⟩ .f32) : FVec Ideal ⟨2, ![M, 1]⟩ .f32 :=
  Host.log (broadcastInDim ⟨2, ![M, 1]⟩ ![0] hc
    (Host.reduceAdd (Host.exp W) (constant (F := Ideal) ⟨0, ![]⟩ .f32 0x00000000#32) hr' hu))

/-- The whole row-wise log-softmax of `X`. -/
def hLsm (X : FVec Ideal ⟨2, ![M, N]⟩ .f32) : FVec Ideal ⟨2, ![M, N]⟩ .f32 :=
  subf (hShift h0 hr' hu hc hbc X) (broadcastInDim ⟨2, ![M, N]⟩ ![0, 1] hbc (hLse hr' hu hc (hShift h0 hr' hu hc hbc X)))

theorem hBias_apply (A : FVec Ideal ⟨2, ![M, N]⟩ .f32) (B : FVec Ideal ⟨2, ![1, N]⟩ .f32) (r : Fin M) (k : Fin N) :
    hBias hb A B (ix2 r k) = A (ix2 r k) + B (ix2 (0 : Fin 1) k) := by
  unfold hBias
  rw [addf_apply, broadcastInDim_oneRow_apply hb B r k]

/-- A column broadcast to `[M, 1]` and then along the rows reads, at `(r, q)`, the column's entry `r`. -/
theorem hcol_apply {α : Type} (v : (⟨1, ![M]⟩ : Shape).Idx → α) (r : Fin M) (q : Fin N) :
    broadcastInDim ⟨2, ![M, N]⟩ ![0, 1] hbc (broadcastInDim ⟨2, ![M, 1]⟩ ![0] hc v) (ix2 r q) = v (ix1 r) := by
  rw [broadcastInDim_apply ![0, 1] hbc _ (ix2 r q) (ix2 r (0 : Fin 1)) (fun a => by
    match a with
    | ⟨0, _⟩ =>
      show r.val = if M = 1 then 0 else r.val
      split
      · have := r.isLt; omega
      · rfl
    | ⟨1, _⟩ => rfl)]
  exact broadcastInDim_apply ![0] hc v (ix2 r (0 : Fin 1)) (ix1 r) (fun a => by
    match a with
    | ⟨0, _⟩ =>
      show r.val = if M = 1 then 0 else r.val
      split
      · have := r.isLt; omega
      · rfl)

theorem hRowMax_apply (hr : (⟨2, ![M, N]⟩ : Shape).Reduces [1] ⟨1, ![M]⟩) (X : FVec Ideal ⟨2, ![M, N]⟩ .f32) (r : Fin M) :
    hRowMax h0 hr' hu X (ix1 r) = rowMax fun k : Fin N => X (ix2 r k) := by
  unfold hRowMax rowMax
  rw [maximumf_apply, broadcastInDim_apply ![] h0 _ (ix1 r) ix0 (fun a => a.elim0), constant_apply,
    Host.reduce_eq_fold_single FloatOps.maximumf X _ hr' hr hu (ix1 r), constant_apply]
  refine congrArg (max _) ?_
  refine congrArg (Finset.univ.fold max _) ?_
  funext k
  exact congrArg X (lift_row hr r k)

theorem hShift_apply (hr : (⟨2, ![M, N]⟩ : Shape).Reduces [1] ⟨1, ![M]⟩) (X : FVec Ideal ⟨2, ![M, N]⟩ .f32) (r : Fin M) (k : Fin N) :
    hShift h0 hr' hu hc hbc X (ix2 r k) = X (ix2 r k) - rowMax fun k' : Fin N => X (ix2 r k') := by
  unfold hShift
  rw [subf_apply, hcol_apply hc hbc, hRowMax_apply h0 hr' hu hr]

theorem hLse_apply (hr : (⟨2, ![M, N]⟩ : Shape).Reduces [1] ⟨1, ![M]⟩) (W : FVec Ideal ⟨2, ![M, N]⟩ .f32) (r : Fin M) :
    hLse hr' hu hc W (ix2 r (0 : Fin 1)) = Ideal.log (∑ k : Fin N, Ideal.exp (W (ix2 r k))) := by
  unfold hLse
  have elog : ∀ (v : FVec Ideal ⟨2, ![M, 1]⟩ .f32) (i : (⟨2, ![M, 1]⟩ : Shape).Idx), Host.log v i = Ideal.log (v i) :=
    fun _ _ => rfl
  rw [elog]
  rw [broadcastInDim_apply ![0] hc _ (ix2 r (0 : Fin 1)) (ix1 r) (fun a => by
    match a with
    | ⟨0, _⟩ =>
      show r.val = if M = 1 then 0 else r.val
      split
      · have := r.isLt; omega
      · rfl)]
  show Ideal.log (Ideal.hostReduceAdd hr' (Host.exp W) _ (ix1 r)) = _
  rw [Ideal.hostReduceAdd_single hr' hr, constant_apply, Ideal.ofBits_zero_f32, zero_add]
  refine congrArg Ideal.log (Finset.sum_congr rfl fun k _ => ?_)
  show Ideal.exp (W (hr.lift (ix1 r) k)) = _
  rw [lift_row hr r k]

/-- The host's spelling at `(r, q)`. -/
theorem hLsm_apply (hr : (⟨2, ![M, N]⟩ : Shape).Reduces [1] ⟨1, ![M]⟩) (X : FVec Ideal ⟨2, ![M, N]⟩ .f32) (r : Fin M) (q : Fin N) :
    hLsm h0 hr' hu hc hbc X (ix2 r q) = lsmRow (fun k : Fin N => X (ix2 r k)) q := by
  unfold hLsm lsmRow
  rw [subf_apply, hShift_apply h0 hr' hu hc hbc hr]
  rw [broadcastInDim_apply ![0, 1] hbc _ (ix2 r q) (ix2 r (0 : Fin 1)) (fun a => by
    match a with
    | ⟨0, _⟩ =>
      show r.val = if M = 1 then 0 else r.val
      split
      · have := r.isLt; omega
      · rfl
    | ⟨1, _⟩ => rfl)]
  rw [hLse_apply hr' hu hc hr]
  simp only [hShift_apply h0 hr' hu hc hbc hr]

end Host

end Idealize.ShloMosaic.RowLsm

end
-- ==== Proof.Region2.lean ====
/-
  The third pallas_call, as one whole-array function. Point `t` of its ten-point grid stages rows `5000 t …` of the
  aggregated features `A : [50000, 64]` and the bias as one row `B : [1, 64]`, and writes back rows `5000 t …` of the
  result: the log-softmax of each row of `A + bias`. A row's log-softmax depends on that row alone, so the entry
  `(p, q)` of the block point `t` writes is the entry `(5000 t + p, q)` of the host's log-softmax of the whole
  `A + bias` (the row formula both spellings reduce to is `RowLsm.lsmRow`). The ten blocks tile the result.
-/
import proofs.«172606_j47107201302761_1_alg».proof.Proof.Gen.KernelIdeal.Frame
import proofs.«172606_j47107201302761_1_alg».proof.Proof.LibRowLsm
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The side conditions of the host's spelling over the whole `[50000, 64]` array. -/
structure HostFacts : Prop where
  hb : (⟨2, ![1, 64]⟩ : Shape).BroadcastsInDim ⟨2, ![50000, 64]⟩ ![0, 1]
  h0 : (⟨0, ![]⟩ : Shape).BroadcastsInDim ⟨1, ![50000]⟩ ![]
  hr' : (⟨2, ![50000, 64]⟩ : Shape).ReducesTo [1] ⟨1, ![50000]⟩
  hu : 0 < (⟨0, ![]⟩ : Shape).numel
  hc : (⟨1, ![50000]⟩ : Shape).BroadcastsInDim ⟨2, ![50000, 1]⟩ ![0]
  hbc : (⟨2, ![50000, 1]⟩ : Shape).BroadcastsInDim ⟨2, ![50000, 64]⟩ ![0, 1]

/-- The log-softmax of each row of `A + bias` over the whole arrays, as the host spells it. -/
abbrev whole (H : HostFacts) (A : FVec Ideal S50000x64 .f32) (B : FVec Ideal S1x64 .f32) : FVec Ideal S50000x64 .f32 :=
  RowLsm.hLsm (M := 50000) (N := 64) H.h0 H.hr' H.hu H.hc H.hbc (RowLsm.hBias H.hb A B)

theorem hz : (![0, 0] : Fin 2 → Nat) = fun _ => 0 := funext fun a => by fin_cases a <;> rfl

/-- The body's stored value is the accelerator's spelling of the row-wise log-softmax of its two loaded blocks. -/
theorem pay_eq (x0 : Vec Ideal S5000x64 .f32) (x1 : Vec Ideal S1x64 .f32) :
    k2_pay1 x0 x1 = RowLsm.kLsm (M := 5000) (N := 64) shapeCasts_S5000x64_S5000x64 shapeCasts_S1x64_S1x64
      broadcasts_S1x64_S5000x64 reduces_S5000x64_S5000 (.inl rfl) rfl rfl shapeCasts_S5000_S5000x1
      broadcasts_S5000x1_S5000x64 x0 x1 := rfl

/-- The host's spelling at `(r, q)`: the row formula of row `r` of `A + bias`. -/
theorem whole_apply (H : HostFacts) (A : FVec Ideal S50000x64 .f32) (B : FVec Ideal S1x64 .f32) (r : Fin 50000) (q : Fin 64) :
    whole H A B (ix2 r q) = RowLsm.lsmRow (fun k : Fin 64 => A (ix2 r k) + B (ix2 (0 : Fin 1) k)) q := by
  show RowLsm.hLsm (M := 50000) (N := 64) H.h0 H.hr' H.hu H.hc H.hbc (RowLsm.hBias H.hb A B) (ix2 r q) = _
  rw [RowLsm.hLsm_apply H.h0 H.hr' H.hu H.hc H.hbc (by decide)]
  simp only [RowLsm.hBias_apply]

/-- One point's block against the whole: the left block holds rows `T·5000 …` of `A`, the other block is the bias
    row, the output block sits at rows `T·5000 …`. -/
theorem block_eq (H : HostFacts) (A : FVec Ideal S50000x64 .f32) (B : FVec Ideal S1x64 .f32)
    (x0 : Vec Ideal S5000x64 .f32) (x1 : Vec Ideal S1x64 .f32) (T : Nat)
    (e : S5000x64.Idx → S50000x64.Idx)
    (he0 : ∀ j, (e j 0).val = T * 5000 + (j 0).val) (he1 : ∀ j, (e j 1).val = (j 1).val)
    (hx0 : ∀ (y : S5000x64.Idx) (i : S50000x64.Idx), (i 0).val = T * 5000 + (y 0).val → (i 1).val = (y 1).val → x0 y = A i)
    (hx1 : x1 = B) (j : S5000x64.Idx) :
    k2_pay1 x0 x1 j = whole H A B (e j) := by
  subst hx1
  obtain ⟨p, q, rfl⟩ : ∃ (p : Fin 5000) (q : Fin 64), j = ix2 p q := ⟨j 0, j 1, eq_ix2 j⟩
  obtain ⟨r, s, hrs⟩ : ∃ (r : Fin 50000) (s : Fin 64), e (ix2 p q) = ix2 r s :=
    ⟨e (ix2 p q) 0, e (ix2 p q) 1, eq_ix2 _⟩
  have hr : r.val = T * 5000 + p.val := by have := he0 (ix2 p q); rw [hrs] at this; exact this
  have hs : s = q := Fin.ext (by have := he1 (ix2 p q); rw [hrs] at this; exact this)
  subst hs
  rw [hrs, pay_eq]
  refine (RowLsm.kLsm_apply _ _ _ _ _ _ _ _ _ x0 x1 p s).trans ?_
  rw [whole_apply]
  refine congrArg (fun f => RowLsm.lsmRow f s) (funext fun k => ?_)
  rw [hx0 (ix2 p k) (ix2 r k) hr rfl]

/-- The printed index maps over the ten points. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every row block of the result is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What point `t` writes back is block `t` of the whole function of the arrays the region finds. -/
theorem flushed_eq (H : HostFacts) (c : Dev nD) (t : Fin cfg2.N) :
    (dat2 V c).flushed 2 t = ((cfg2.win 2).blk t).view.read (Elt Ideal) (whole H (V c main_v75) (V c main_v76)) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  obtain ⟨e0, e1, e2, e3, e4⟩ := idx_facts t
  funext j
  refine block_eq H (V c main_v75) (V c main_v76) _ _ (win2_2.index t (0 : Fin 2))
    (fun j => ((cfg2.win 2).blk t).view.emb j) ?_ ?_ ?_ ?_ j
  · intro j
    show win2_2.index t (0 : Fin 2) * 5000 + 1 * (j 0).val = _
    omega
  · intro j
    show win2_2.index t (1 : Fin 2) * 64 + 1 * (j 1).val = _
    omega
  · intro y i h0' h1'
    show V c main_v75 (((cfg2.win 0).blk t).view.emb y) = V c main_v75 i
    refine congrArg _ (funext fun a => Fin.ext ?_)
    match a with
    | ⟨0, _⟩ => show win2_0.index t (0 : Fin 2) * 5000 + 1 * (y 0).val = (i 0).val; omega
    | ⟨1, _⟩ => show win2_0.index t (1 : Fin 2) * 64 + 1 * (y 1).val = (i 1).val; omega
  · funext y
    show V c main_v76 (((cfg2.win 1).blk t).view.emb y) = V c main_v76 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 64 + 1 * (y 1).val = (y 1).val; omega

/-- An index of the result is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v77).slice (win2_2.rect t)).set ↔ _
  rw [View.set_slice_whole, Rect.mem_set_unit]
  exact Iff.rfl

/-- Row `r` of the result lies in the block of point `r / 5000`. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the result array is the whole function of the arrays the region found. -/
theorem arr_eq (H : HostFacts) (c : Dev nD) :
    (dat2 V c).arrAt 2 cfg2.N = whole H (V c main_v75) (V c main_v76) :=
  (dat2 V c).arrAt_eq_of_cover 2 _ (fun t _ => flushed_eq V H c t) cover

end Cert.KernelIdeal.Region2

end
-- ==== Proof.KHost.lean ====
/-
  The kernel program's run, boundary by boundary, in the reference's own stages.

  @main of the kernel program is: host operations that build the edge lists (source and destination with the self
  loops appended) and the inverse square roots of the degrees; the first pallas_call (`X · W1`); host operations
  that gather, scale and scatter-add the messages; the second pallas_call (`relu (· + b1) · W2`); the same message
  passing again; the third pallas_call (row-wise log-softmax of `· + b2`). The reference runs the very same host
  operations around plain host products, so every buffer the kernel program holds at a segment boundary is one of
  the reference's stages at the kernel program's arguments:
    after the first stretch   the edge lists and the degree factors;
    after region 0            the first product;
    after the second stretch  the first aggregation;
    after region 1            the second product (of the relu of the biased aggregation);
    after the third stretch   the second aggregation;
    after region 2            the result.
  The host stretches are compared operation by operation (their texts are the same but for the buffer names);
  the regions are the three whole-array lemmas. The only host operations that differ are the two that turn a bias
  vector into one row: the kernel program reshapes `[n] → [1, n]`, the reference broadcasts along axis 1; both put
  entry `k` at `(0, k)`.
-/
import proofs.«172606_j47107201302761_1_alg».proof.Proof.Gen.KernelIdeal.Frame
import proofs.«172606_j47107201302761_1_alg».proof.Proof.RefRead
import proofs.«172606_j47107201302761_1_alg».proof.Proof.Region0
import proofs.«172606_j47107201302761_1_alg».proof.Proof.Region1
import proofs.«172606_j47107201302761_1_alg».proof.Proof.Region2

set_option maxRecDepth 16384

noncomputable section

namespace Cert.KernelIdeal.HostV

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen
open Cert.ReferenceIdeal.ReadP

/-! ## A vector as one row, two ways -/

/-- Reshaping `[n] → [1, n]` and broadcasting `[n]` along axis 1 of `[1, n]` are one array: entry `k` at `(0, k)`. -/
theorem reshape_row_eq_broadcast {α : Type} {n : Nat} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨r, k, rfl⟩ : ∃ (r : Fin 1) (k : Fin n), i = ix2 r k := ⟨i 0, i 1, eq_ix2 i⟩
  have e1 := shapeCast_apply x h (ix2 r k) (ix1 k) (by
    rw [Shape.rowMajor_val_two, Shape.rowMajor_val_one]
    show k.val = r.val * n + k.val
    have := r.isLt; have hr : r.val = 0 := by omega
    rw [hr]; omega)
  have e2 := broadcastInDim_apply ![1] hd x (ix2 r k) (ix1 k) (fun a => by
    match a with
    | ⟨0, _⟩ =>
      show k.val = if n = 1 then 0 else k.val
      split
      · have := k.isLt; omega
      · rfl)
  exact e1.trans e2.symm

/-! ## The host stretches, for any float values

Each lemma reads one buffer after a stretch, from any contents `W` at the stretch's entry whose buffers the stretch
reads hold the reference's stages. -/

section Stretches

variable {F : FTy → Type} [FloatOps F]

/-- The source list with the self loops appended. -/
theorem stretch0_v3 (W : Valuation τ sig (Elt F)) :
    StableHlo.after hostOps0_1 (StableHlo.after hostOps0 W) (Proc.devRef .tc main_v3)
      = val_main_v3 (F := F) (W (Proc.devRef .tc main_arg1)) := by
  after_results_simp <;> rfl

/-- The destination list with the self loops appended. -/
theorem stretch0_v6 (W : Valuation τ sig (Elt F)) :
    StableHlo.after hostOps0_1 (StableHlo.after hostOps0 W) (Proc.devRef .tc main_v6)
      = val_main_v6 (F := F) (W (Proc.devRef .tc main_arg1)) := by
  after_results_simp <;> rfl

/-- The inverse square roots of the degrees (zero where the degree is not positive). -/
theorem stretch0_v16 (W : Valuation τ sig (Elt F)) :
    StableHlo.after hostOps0_1 (StableHlo.after hostOps0 W) (Proc.devRef .tc main_v16)
      = val_main_v16 (F := F) (W (Proc.devRef .tc main_arg1)) := by
  after_results_simp <;> rfl

/-- The first aggregation, from the edge lists, the degree factors and the first product. -/
theorem stretch1_v45 (W : Valuation τ sig (Elt F)) (x0 x1 x2)
    (h3 : W (Proc.devRef .tc main_v3) = val_main_v3 (F := F) x1)
    (h6 : W (Proc.devRef .tc main_v6) = val_main_v6 (F := F) x1)
    (h16 : W (Proc.devRef .tc main_v16) = val_main_v16 (F := F) x1)
    (h17 : W (Proc.devRef .tc main_v17) = val_main_v17 (F := F) x0 x2) :
    StableHlo.after hostOps1 W (Proc.devRef .tc main_v45) = val_main_v45 (F := F) x0 x1 x2 := by
  after_results_simp
  rw [h3, h6, h16, h17]
  rfl

/-- The second aggregation, from the edge lists, the degree factors and the second product. -/
theorem stretch2_v75 (W : Valuation τ sig (Elt F)) (x0 x1 x2 x3 x4)
    (h3 : W (Proc.devRef .tc main_v3) = val_main_v3 (F := F) x1)
    (h6 : W (Proc.devRef .tc main_v6) = val_main_v6 (F := F) x1)
    (h16 : W (Proc.devRef .tc main_v16) = val_main_v16 (F := F) x1)
    (h47 : W (Proc.devRef .tc main_v47) = val_main_v50 (F := F) x0 x1 x2 x3 x4) :
    StableHlo.after hostOps2 W (Proc.devRef .tc main_v75) = val_main_v78 (F := F) x0 x1 x2 x3 x4 := by
  after_results_simp
  rw [h3, h6, h16, h47]
  rfl

end Stretches

/-! ## The boundaries of the kernel program's run, at the ideal values -/

section Chain

variable (m : (ℓ : Loc nD τ sig) → Buf (Elt Ideal) ℓ) (ρ : Dev nD → PrngReg) (c : Dev nD)

/-! ### Entering region 0 -/

theorem W2_a0 : W2 m ρ c (Proc.devRef .tc main_arg0) = m ((c : Thread nD τ).loc main_arg0) := by
  show StableHlo.after hostOps0_1 (StableHlo.after hostOps0 (W0 m ρ c)) (Proc.devRef .tc main_arg0) = _
  after_results_simp <;> rfl
theorem W2_a2 : W2 m ρ c (Proc.devRef .tc main_arg2) = m ((c : Thread nD τ).loc main_arg2) := by
  show StableHlo.after hostOps0_1 (StableHlo.after hostOps0 (W0 m ρ c)) (Proc.devRef .tc main_arg2) = _
  after_results_simp <;> rfl
theorem W2_a3 : W2 m ρ c (Proc.devRef .tc main_arg3) = m ((c : Thread nD τ).loc main_arg3) := by
  show StableHlo.after hostOps0_1 (StableHlo.after hostOps0 (W0 m ρ c)) (Proc.devRef .tc main_arg3) = _
  after_results_simp <;> rfl
theorem W2_a4 : W2 m ρ c (Proc.devRef .tc main_arg4) = m ((c : Thread nD τ).loc main_arg4) := by
  show StableHlo.after hostOps0_1 (StableHlo.after hostOps0 (W0 m ρ c)) (Proc.devRef .tc main_arg4) = _
  after_results_simp <;> rfl
theorem W2_a5 : W2 m ρ c (Proc.devRef .tc main_arg5) = m ((c : Thread nD τ).loc main_arg5) := by
  show StableHlo.after hostOps0_1 (StableHlo.after hostOps0 (W0 m ρ c)) (Proc.devRef .tc main_arg5) = _
  after_results_simp <;> rfl
theorem W2_v3 : W2 m ρ c (Proc.devRef .tc main_v3) = val_main_v3 (F := Ideal) (m ((c : Thread nD τ).loc main_arg1)) :=
  stretch0_v3 (W0 m ρ c)
theorem W2_v6 : W2 m ρ c (Proc.devRef .tc main_v6) = val_main_v6 (F := Ideal) (m ((c : Thread nD τ).loc main_arg1)) :=
  stretch0_v6 (W0 m ρ c)
theorem W2_v16 : W2 m ρ c (Proc.devRef .tc main_v16) = val_main_v16 (F := Ideal) (m ((c : Thread nD τ).loc main_arg1)) :=
  stretch0_v16 (W0 m ρ c)

/-! ### Leaving region 0: the first product -/

theorem W3_v17 : W3 m ρ c (Proc.devRef .tc main_v17)
    = val_main_v17 (F := Ideal) (m ((c : Thread nD τ).loc main_arg0)) (m ((c : Thread nD τ).loc main_arg2)) := by
  refine (W3_arr m ρ c 2).trans ((Region0.arr_eq (V2 m ρ)
    Cert.ReferenceIdeal.dot_S50000x128_S128x256_S50000x256_1_0_0_1_n_n.wf c).trans ?_)
  have e0 : V2 m ρ c main_arg0 = m ((c : Thread nD τ).loc main_arg0) := W2_a0 m ρ c
  have e2 : V2 m ρ c main_arg2 = m ((c : Thread nD τ).loc main_arg2) := W2_a2 m ρ c
  rw [e0, e2]
  rfl
theorem W3_v3 : W3 m ρ c (Proc.devRef .tc main_v3) = val_main_v3 (F := Ideal) (m ((c : Thread nD τ).loc main_arg1)) :=
  (W3_of_ne m ρ c main_v3 (by decide)).trans (W2_v3 m ρ c)
theorem W3_v6 : W3 m ρ c (Proc.devRef .tc main_v6) = val_main_v6 (F := Ideal) (m ((c : Thread nD τ).loc main_arg1)) :=
  (W3_of_ne m ρ c main_v6 (by decide)).trans (W2_v6 m ρ c)
theorem W3_v16 : W3 m ρ c (Proc.devRef .tc main_v16) = val_main_v16 (F := Ideal) (m ((c : Thread nD τ).loc main_arg1)) :=
  (W3_of_ne m ρ c main_v16 (by decide)).trans (W2_v16 m ρ c)
theorem W3_a3 : W3 m ρ c (Proc.devRef .tc main_arg3) = m ((c : Thread nD τ).loc main_arg3) :=
  (W3_of_ne m ρ c main_arg3 (by decide)).trans (W2_a3 m ρ c)
theorem W3_a4 : W3 m ρ c (Proc.devRef .tc main_arg4) = m ((c : Thread nD τ).loc main_arg4) :=
  (W3_of_ne m ρ c main_arg4 (by decide)).trans (W2_a4 m ρ c)
theorem W3_a5 : W3 m ρ c (Proc.devRef .tc main_arg5) = m ((c : Thread nD τ).loc main_arg5) :=
  (W3_of_ne m ρ c main_arg5 (by decide)).trans (W2_a5 m ρ c)

/-! ### Entering region 1: the first aggregation, the first bias as a row -/

theorem W4_v45 : W4 m ρ c (Proc.devRef .tc main_v45)
    = val_main_v45 (F := Ideal) (m ((c : Thread nD τ).loc main_arg0)) (m ((c : Thread nD τ).loc main_arg1)) (m ((c : Thread nD τ).loc main_arg2)) :=
  stretch1_v45 (W3 m ρ c) _ _ _ (W3_v3 m ρ c) (W3_v6 m ρ c) (W3_v16 m ρ c) (W3_v17 m ρ c)
theorem W4_v46 : W4 m ρ c (Proc.devRef .tc main_v46) = val_main_v46 (F := Ideal) (m ((c : Thread nD τ).loc main_arg3)) := by
  have e : W4 m ρ c (Proc.devRef .tc main_v46)
      = shapeCast S1x256 (W3 m ρ c (Proc.devRef .tc main_arg3)) shapeCasts_S256_S1x256 := by
    show StableHlo.after hostOps1 (W3 m ρ c) (Proc.devRef .tc main_v46) = _
    after_results_simp <;> rfl
  rw [e, W3_a3]
  exact reshape_row_eq_broadcast _ _ _
theorem W4_a4 : W4 m ρ c (Proc.devRef .tc main_arg4) = m ((c : Thread nD τ).loc main_arg4) := by
  have e : W4 m ρ c (Proc.devRef .tc main_arg4) = W3 m ρ c (Proc.devRef .tc main_arg4) := by
    show StableHlo.after hostOps1 (W3 m ρ c) (Proc.devRef .tc main_arg4) = _
    after_results_simp <;> rfl
  rw [e, W3_a4]
theorem W4_a5 : W4 m ρ c (Proc.devRef .tc main_arg5) = m ((c : Thread nD τ).loc main_arg5) := by
  have e : W4 m ρ c (Proc.devRef .tc main_arg5) = W3 m ρ c (Proc.devRef .tc main_arg5) := by
    show StableHlo.after hostOps1 (W3 m ρ c) (Proc.devRef .tc main_arg5) = _
    after_results_simp <;> rfl
  rw [e, W3_a5]
theorem W4_v3 : W4 m ρ c (Proc.devRef .tc main_v3) = val_main_v3 (F := Ideal) (m ((c : Thread nD τ).loc main_arg1)) := by
  have e : W4 m ρ c (Proc.devRef .tc main_v3) = W3 m ρ c (Proc.devRef .tc main_v3) := by
    show StableHlo.after hostOps1 (W3 m ρ c) (Proc.devRef .tc main_v3) = _
    after_results_simp <;> rfl
  rw [e, W3_v3]
theorem W4_v6 : W4 m ρ c (Proc.devRef .tc main_v6) = val_main_v6 (F := Ideal) (m ((c : Thread nD τ).loc main_arg1)) := by
  have e : W4 m ρ c (Proc.devRef .tc main_v6) = W3 m ρ c (Proc.devRef .tc main_v6) := by
    show StableHlo.after hostOps1 (W3 m ρ c) (Proc.devRef .tc main_v6) = _
    after_results_simp <;> rfl
  rw [e, W3_v6]
theorem W4_v16 : W4 m ρ c (Proc.devRef .tc main_v16) = val_main_v16 (F := Ideal) (m ((c : Thread nD τ).loc main_arg1)) := by
  have e : W4 m ρ c (Proc.devRef .tc main_v16) = W3 m ρ c (Proc.devRef .tc main_v16) := by
    show StableHlo.after hostOps1 (W3 m ρ c) (Proc.devRef .tc main_v16) = _
    after_results_simp <;> rfl
  rw [e, W3_v16]

/-! ### Leaving region 1: the second product -/

theorem W5_v47 : W5 m ρ c (Proc.devRef .tc main_v47)
    = val_main_v50 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (W5_arr m ρ c 3).trans ((Region1.arr_eq (V4 m ρ)
    Cert.ReferenceIdeal.dot_S50000x256_S256x64_S50000x64_1_0_0_1_n_n.wf
    Cert.ReferenceIdeal.Facts₀.bcast_S1x256_S50000x256_0_1 Cert.ReferenceIdeal.Facts₀.bcast_S_S50000x256 c).trans ?_)
  have e45 : V4 m ρ c main_v45 = _ := W4_v45 m ρ c
  have e46 : V4 m ρ c main_v46 = _ := W4_v46 m ρ c
  have e4 : V4 m ρ c main_arg4 = _ := W4_a4 m ρ c
  rw [e45, e46, e4]
  rfl
theorem W5_v3 : W5 m ρ c (Proc.devRef .tc main_v3) = val_main_v3 (F := Ideal) (m ((c : Thread nD τ).loc main_arg1)) :=
  (W5_of_ne m ρ c main_v3 (by decide)).trans (W4_v3 m ρ c)
theorem W5_v6 : W5 m ρ c (Proc.devRef .tc main_v6) = val_main_v6 (F := Ideal) (m ((c : Thread nD τ).loc main_arg1)) :=
  (W5_of_ne m ρ c main_v6 (by decide)).trans (W4_v6 m ρ c)
theorem W5_v16 : W5 m ρ c (Proc.devRef .tc main_v16) = val_main_v16 (F := Ideal) (m ((c : Thread nD τ).loc main_arg1)) :=
  (W5_of_ne m ρ c main_v16 (by decide)).trans (W4_v16 m ρ c)
theorem W5_a5 : W5 m ρ c (Proc.devRef .tc main_arg5) = m ((c : Thread nD τ).loc main_arg5) :=
  (W5_of_ne m ρ c main_arg5 (by decide)).trans (W4_a5 m ρ c)

/-! ### Entering region 2: the second aggregation, the second bias as a row -/

theorem W6_v75 : W6 m ρ c (Proc.devRef .tc main_v75)
    = val_main_v78 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) :=
  stretch2_v75 (W5 m ρ c) _ _ _ _ _ (W5_v3 m ρ c) (W5_v6 m ρ c) (W5_v16 m ρ c) (W5_v47 m ρ c)
theorem W6_v76 : W6 m ρ c (Proc.devRef .tc main_v76) = val_main_v79 (F := Ideal) (m ((c : Thread nD τ).loc main_arg5)) := by
  have e : W6 m ρ c (Proc.devRef .tc main_v76)
      = shapeCast S1x64 (W5 m ρ c (Proc.devRef .tc main_arg5)) shapeCasts_S64_S1x64 := by
    show StableHlo.after hostOps2 (W5 m ρ c) (Proc.devRef .tc main_v76) = _
    after_results_simp <;> rfl
  rw [e, W5_a5]
  exact reshape_row_eq_broadcast _ _ _

/-! ### Leaving region 2: the result -/

/-- The side conditions of the reference's log-softmax over the whole array, from the reference's own facts. -/
theorem hostFacts : Region2.HostFacts where
  hb := Cert.ReferenceIdeal.Facts₀.bcast_S1x64_S50000x64_0_1
  h0 := Cert.ReferenceIdeal.Facts₀.bcast_S_S50000
  hr' := Cert.ReferenceIdeal.Facts₀.reducesTo_S50000x64_S50000_d1
  hu := Cert.ReferenceIdeal.Facts₀.h_S_
  hc := Cert.ReferenceIdeal.Facts₀.bcast_S50000_S50000x1_0
  hbc := Cert.ReferenceIdeal.Facts₀.bcast_S50000x1_S50000x64_0_1

/-- THE RESULT of the kernel program's run is the reference's last stage at the kernel program's arguments. -/
theorem W7_v77 : W7 m ρ c (Proc.devRef .tc main_v77)
    = val_main_v82 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W7_arr m ρ c 2).trans ((Region2.arr_eq (V6 m ρ) hostFacts c).trans ?_)
  have e75 : V6 m ρ c main_v75 = _ := W6_v75 m ρ c
  have e76 : V6 m ρ c main_v76 = _ := W6_v76 m ρ c
  rw [e75, e76]
  rfl

end Chain

end Cert.KernelIdeal.HostV

end
-- ==== Proof.RefRunStages.lean ====
/-
  The reference's run, read in four pieces.

  The reference's @main is a list of 120 host operations. Its result is read here against the stages of
  Proof/RefRead.lean (one definition per operation, each from the stages before it) without ever composing the
  120 operations into one term: the list is cut after the first product (25 operations), after the second
  product (42 more), after the second aggregation with its bias added (38 more), and the last 15 are the
  log-softmax. For each piece, from ANY buffer contents at its entry whose buffers the piece reads hold their
  stages, the buffer it ends in holds its stage; a buffer a piece does not write keeps its contents. Chaining the
  four pieces from the launch contents gives the result's stage at the arguments.
-/
import proofs.«172606_j47107201302761_1_alg».proof.Proof.RefRun
import proofs.«172606_j47107201302761_1_alg».proof.Proof.RefRead
import Idealize.ShloMosaic.Lib.StableHlo.Run

set_option maxRecDepth 16384

noncomputable section

namespace Cert.ReferenceIdeal.RunStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after a list of operations followed by another: the second list run from what the first leaves. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, after_cons, ih]

/-- Through the first product: the edge lists, the degree factors, `X · W1`. -/
abbrev opsA : List (HloOp τ sig (Elt F)) := (ops (F := F)).take 25
/-- Through the second product: the first aggregation, its bias and relu, `· W2`. -/
abbrev opsB : List (HloOp τ sig (Elt F)) := ((ops (F := F)).drop 25).take 42
/-- Through the second aggregation with its bias added. -/
abbrev opsC : List (HloOp τ sig (Elt F)) := ((ops (F := F)).drop 67).take 38
/-- The row-wise log-softmax. -/
abbrev opsD : List (HloOp τ sig (Elt F)) := (ops (F := F)).drop 105

theorem ops_split : (ops : List (HloOp τ sig (Elt F))) = opsA ++ (opsB ++ (opsC ++ opsD)) := by
  simp only [opsA, opsB, opsC, opsD, ops, List.take_succ_cons, List.take_zero, List.drop_succ_cons, List.drop_zero,
    List.cons_append, List.nil_append]

/-! ## The first piece -/

theorem A_v3 (W : Valuation τ sig (Elt F)) :
    StableHlo.after opsA W (Proc.devRef .tc main_v3) = val_main_v3 (F := F) (W (Proc.devRef .tc main_arg1)) := by
  simp only [opsA, ops, List.take_succ_cons, List.take_zero]
  after_results_simp <;> rfl
theorem A_v6 (W : Valuation τ sig (Elt F)) :
    StableHlo.after opsA W (Proc.devRef .tc main_v6) = val_main_v6 (F := F) (W (Proc.devRef .tc main_arg1)) := by
  simp only [opsA, ops, List.take_succ_cons, List.take_zero]
  after_results_simp <;> rfl
theorem A_v16 (W : Valuation τ sig (Elt F)) :
    StableHlo.after opsA W (Proc.devRef .tc main_v16) = val_main_v16 (F := F) (W (Proc.devRef .tc main_arg1)) := by
  simp only [opsA, ops, List.take_succ_cons, List.take_zero]
  after_results_simp <;> rfl
theorem A_v17 (W : Valuation τ sig (Elt F)) :
    StableHlo.after opsA W (Proc.devRef .tc main_v17)
      = val_main_v17 (F := F) (W (Proc.devRef .tc main_arg0)) (W (Proc.devRef .tc main_arg2)) := by
  simp only [opsA, ops, List.take_succ_cons, List.take_zero]
  after_results_simp <;> rfl
theorem A_a3 (W : Valuation τ sig (Elt F)) :
    StableHlo.after opsA W (Proc.devRef .tc main_arg3) = W (Proc.devRef .tc main_arg3) := by
  simp only [opsA, ops, List.take_succ_cons, List.take_zero]
  after_results_simp <;> rfl
theorem A_a4 (W : Valuation τ sig (Elt F)) :
    StableHlo.after opsA W (Proc.devRef .tc main_arg4) = W (Proc.devRef .tc main_arg4) := by
  simp only [opsA, ops, List.take_succ_cons, List.take_zero]
  after_results_simp <;> rfl
theorem A_a5 (W : Valuation τ sig (Elt F)) :
    StableHlo.after opsA W (Proc.devRef .tc main_arg5) = W (Proc.devRef .tc main_arg5) := by
  simp only [opsA, ops, List.take_succ_cons, List.take_zero]
  after_results_simp <;> rfl

/-! ## The second piece -/

theorem B_v50 (W : Valuation τ sig (Elt F)) (x0 x1 x2 x3 x4)
    (h3 : W (Proc.devRef .tc main_v3) = val_main_v3 (F := F) x1)
    (h6 : W (Proc.devRef .tc main_v6) = val_main_v6 (F := F) x1)
    (h16 : W (Proc.devRef .tc main_v16) = val_main_v16 (F := F) x1)
    (h17 : W (Proc.devRef .tc main_v17) = val_main_v17 (F := F) x0 x2)
    (ha3 : W (Proc.devRef .tc main_arg3) = x3) (ha4 : W (Proc.devRef .tc main_arg4) = x4) :
    StableHlo.after opsB W (Proc.devRef .tc main_v50) = val_main_v50 (F := F) x0 x1 x2 x3 x4 := by
  simp only [opsB, ops, List.take_succ_cons, List.take_zero, List.drop_succ_cons, List.drop_zero]
  after_results_simp
  rw [h3, h6, h16, h17, ha3, ha4]
  rfl
theorem B_v3 (W : Valuation τ sig (Elt F)) :
    StableHlo.after opsB W (Proc.devRef .tc main_v3) = W (Proc.devRef .tc main_v3) := by
  simp only [opsB, ops, List.take_succ_cons, List.take_zero, List.drop_succ_cons, List.drop_zero]
  after_results_simp <;> rfl
theorem B_v6 (W : Valuation τ sig (Elt F)) :
    StableHlo.after opsB W (Proc.devRef .tc main_v6) = W (Proc.devRef .tc main_v6) := by
  simp only [opsB, ops, List.take_succ_cons, List.take_zero, List.drop_succ_cons, List.drop_zero]
  after_results_simp <;> rfl
theorem B_v16 (W : Valuation τ sig (Elt F)) :
    StableHlo.after opsB W (Proc.devRef .tc main_v16) = W (Proc.devRef .tc main_v16) := by
  simp only [opsB, ops, List.take_succ_cons, List.take_zero, List.drop_succ_cons, List.drop_zero]
  after_results_simp <;> rfl
theorem B_a5 (W : Valuation τ sig (Elt F)) :
    StableHlo.after opsB W (Proc.devRef .tc main_arg5) = W (Proc.devRef .tc main_arg5) := by
  simp only [opsB, ops, List.take_succ_cons, List.take_zero, List.drop_succ_cons, List.drop_zero]
  after_results_simp <;> rfl

/-! ## The third piece -/

theorem C_v81 (W : Valuation τ sig (Elt F)) (x0 x1 x2 x3 x4 x5)
    (h3 : W (Proc.devRef .tc main_v3) = val_main_v3 (F := F) x1)
    (h6 : W (Proc.devRef .tc main_v6) = val_main_v6 (F := F) x1)
    (h16 : W (Proc.devRef .tc main_v16) = val_main_v16 (F := F) x1)
    (h50 : W (Proc.devRef .tc main_v50) = val_main_v50 (F := F) x0 x1 x2 x3 x4)
    (ha5 : W (Proc.devRef .tc main_arg5) = x5) :
    StableHlo.after opsC W (Proc.devRef .tc main_v81) = val_main_v81 (F := F) x0 x1 x2 x3 x4 x5 := by
  simp only [opsC, ops, List.take_succ_cons, List.take_zero, List.drop_succ_cons, List.drop_zero]
  after_results_simp
  rw [h3, h6, h16, h50, ha5]
  rfl

/-! ## The fourth piece -/

/-- A typed reference's two transports cancel. -/
theorem ofBuf_toBuf {T : BufTy} (x : TRef sig T) (v : T.Contents (Elt F)) : x.ofBuf (x.toBuf v) = v := by
  obtain ⟨r, h, h1, h2⟩ := x
  subst h
  rfl

/-- The log-softmax piece, between typed readings of its entry and its result buffer: if the entry buffer, read at
    its tensor type, holds the stage `agg2 + b2`, the result buffer, read at its tensor type, holds the last stage. -/
theorem D_v82 (W : Valuation τ sig (Elt F)) (x0 x1 x2 x3 x4 x5)
    (h81 : (TRef.of (T := ⟨S50000x64, .f32⟩) main_v81).ofBuf (W (Proc.devRef .tc main_v81))
      = val_main_v81 (F := F) x0 x1 x2 x3 x4 x5) :
    (TRef.of (T := ⟨S50000x64, .f32⟩) main_v82).ofBuf (StableHlo.after opsD W (Proc.devRef .tc main_v82))
      = val_main_v82 (F := F) x0 x1 x2 x3 x4 x5 := by
  simp only [opsD, ops, List.drop_succ_cons, List.drop_zero]
  after_results_simp
  simp only [ofBuf_toBuf]
  rw [h81]
  rfl

/-! ## The four pieces chained -/

/-- From any contents, the result buffer after all 120 operations holds the last stage at the contents' arguments. -/
theorem after_ops_v82 (W : Valuation τ sig (Elt F)) :
    StableHlo.after ops W (Proc.devRef .tc main_v82)
      = val_main_v82 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [ops_split, after_append, after_append, after_append]
  have hA3 := A_v3 W
  have hA6 := A_v6 W
  have hA16 := A_v16 W
  have hA17 := A_v17 W
  have hAa3 := A_a3 W
  have hAa4 := A_a4 W
  have hAa5 := A_a5 W
  generalize StableHlo.after opsA W = W1 at *
  have hB50 := B_v50 W1 (W (Proc.devRef .tc main_arg0)) (W (Proc.devRef .tc main_arg1)) (W (Proc.devRef .tc main_arg2))
    (W (Proc.devRef .tc main_arg3)) (W (Proc.devRef .tc main_arg4)) hA3 hA6 hA16 hA17 hAa3 hAa4
  have hB3 := (B_v3 W1).trans hA3
  have hB6 := (B_v6 W1).trans hA6
  have hB16 := (B_v16 W1).trans hA16
  have hBa5 := (B_a5 W1).trans hAa5
  generalize StableHlo.after opsB W1 = W2 at *
  have hC81 := C_v81 W2 (W (Proc.devRef .tc main_arg0)) (W (Proc.devRef .tc main_arg1)) (W (Proc.devRef .tc main_arg2))
    (W (Proc.devRef .tc main_arg3)) (W (Proc.devRef .tc main_arg4)) (W (Proc.devRef .tc main_arg5)) hB3 hB6 hB16 hB50 hBa5
  generalize StableHlo.after opsC W2 = W3 at *
  have h81t : (TRef.of (T := ⟨S50000x64, .f32⟩) main_v81).ofBuf (W3 (Proc.devRef .tc main_v81))
      = val_main_v81 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
    rw [hC81]; rfl
  exact (show StableHlo.after opsD W3 (Proc.devRef .tc main_v82)
      = (TRef.of (T := ⟨S50000x64, .f32⟩) main_v82).ofBuf (StableHlo.after opsD W3 (Proc.devRef .tc main_v82)) from rfl).trans
    (D_v82 W3 (W (Proc.devRef .tc main_arg0)) (W (Proc.devRef .tc main_arg1)) (W (Proc.devRef .tc main_arg2))
      (W (Proc.devRef .tc main_arg3)) (W (Proc.devRef .tc main_arg4)) (W (Proc.devRef .tc main_arg5)) h81t)

set_option maxRecDepth 8192 in
set_option maxHeartbeats 48000000 in
/-- Every weakly fair execution of the reference terminates with the result at the last stage of the arguments,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
          = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v82).trans (after_ops_v82 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunStages

end
-- ==== Proof.lean ====
/-
  A two-layer graph convolution with a log-softmax head, on 50000 nodes and 800000 edges (plus one self loop per
  node): the kernel program against its jnp reference, at the ideal values (floats are the extended reals, format
  changes the identity, every operation exact).

  Both programs build the same edge lists and degree factors and pass messages by the same gather, scale and
  scatter-add on the host. They differ in three places only. Where the reference takes the host's matrix products
  `X · W1` and `relu (agg1 + b1) · W2` and its log-softmax of `agg2 + b2`, the kernel program runs a pallas_call
  over ten tiles of 5000 rows: a bf16 matrix-unit product into a zero accumulator (at the ideal values the plain
  sum over the contracted axis), the bias-and-relu fused in front of the second product, and the row-wise
  log-softmax on the vector unit. Each of these is row-local, so a tile's block is the same rows of the whole
  result, and the ten tiles cover it (Proof/Region0.lean, Region1.lean, Region2.lean). Between the regions the
  host operations are the reference's own, so every buffer at a segment boundary of the kernel program's run is one
  of the reference's stages at the kernel program's arguments (Proof/KHost.lean), the result included; the
  reference's own run is read against the same stages in four pieces (Proof/RefRunStages.lean).

  No law used needs finiteness (sums are only re-indexed, never distributed over), so the precondition is not opened.
  The idealization pass rewrote nothing: `preserves` is `True`.
-/
import proofs.«172606_j47107201302761_1_alg».proof.Defs
import proofs.«172606_j47107201302761_1_alg».proof.Proof.Gen.Kernel
import proofs.«172606_j47107201302761_1_alg».proof.Proof.Gen.Kernel.Skeleton
import proofs.«172606_j47107201302761_1_alg».proof.Proof.Gen.Kernel.Launch
import proofs.«172606_j47107201302761_1_alg».proof.Proof.Gen.Kernel.Points
import proofs.«172606_j47107201302761_1_alg».proof.Proof.Gen.Kernel.Frame
import proofs.«172606_j47107201302761_1_alg».proof.Proof.Gen.KernelIdeal
import proofs.«172606_j47107201302761_1_alg».proof.Proof.Gen.KernelIdeal.Skeleton
import proofs.«172606_j47107201302761_1_alg».proof.Proof.Gen.KernelIdeal.Launch
import proofs.«172606_j47107201302761_1_alg».proof.Proof.Gen.KernelIdeal.Points
import proofs.«172606_j47107201302761_1_alg».proof.Proof.Gen.KernelIdeal.Frame
import proofs.«172606_j47107201302761_1_alg».proof.Proof.Gen.ReferenceIdeal
import proofs.«172606_j47107201302761_1_alg».proof.Proof.Gen.Pre_finite_inputs
import proofs.«172606_j47107201302761_1_alg».proof.Proof.KernelRun
import proofs.«172606_j47107201302761_1_alg».proof.Proof.KHost
import proofs.«172606_j47107201302761_1_alg».proof.Proof.RefRead
import proofs.«172606_j47107201302761_1_alg».proof.Proof.RefRunStages
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunStages.run (F := Ideal) m ρ)

/-- The idealization pass rewrote no operation. -/
theorem preserves : Cert.preserves_Kernel_KernelIdeal := trivial

/-- Both programs end with the reference's last stage at the kernel program's arguments: the kernel program by its
    run read boundary by boundary, the reference by its own run, its arguments agreeing with the kernel program's. -/
theorem algebraic : Cert.algebraic_KernelIdeal_ReferenceIdeal := by
  intro m ρ m' ρ' _ hagree
  refine ⟨fun c => Cert.ReferenceIdeal.ReadP.val_main_v82 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostV.W7_v77 m ρ c), (h c).2⟩)
      (Cert.KernelIdeal.RunV.run_result (F := Ideal) m ρ)
  · refine (θ_run Cert.ReferenceIdeal.defs _ _).mono (fun r h c => ⟨(h c).1.trans ?_, (h c).2⟩)
      (Cert.ReferenceIdeal.RunStages.run (F := Ideal) m' ρ')
    rw [(hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
